-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x24 : Shape := ⟨2, ![512, 24]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : IVec S512x24 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S512x24 : Shape := ⟨2, ![512, 24]⟩
abbrev S512 : Shape := ⟨1, ![512]⟩
abbrev S512x1 : Shape := ⟨2, ![512, 1]⟩
abbrev S1x512 : Shape := ⟨2, ![1, 512]⟩
abbrev S24x512 : Shape := ⟨2, ![24, 512]⟩
abbrev S1x1 : Shape := ⟨2, ![1, 1]⟩
abbrev S8x512 : Shape := ⟨2, ![8, 512]⟩
abbrev S8x512x1 : Shape := ⟨3, ![8, 512, 1]⟩
abbrev S8x1x512 : Shape := ⟨3, ![8, 1, 512]⟩
abbrev S8x512x512 : Shape := ⟨3, ![8, 512, 512]⟩
abbrev S8 : Shape := ⟨1, ![8]⟩
abbrev S1x8 : Shape := ⟨2, ![1, 8]⟩
abbrev S1 : Shape := ⟨1, ![1]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x24, .i32⟩
  | .hbm, ⟨2, _⟩ => ⟨S512x512, .f32⟩
  | .hbm, ⟨3, _⟩ => ⟨S512x512, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x512, .f32⟩
  | .local _ .vmem, ⟨1, _⟩ => ⟨S512x24, .i32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x1, .f32⟩
  | .local _ .vmem, ⟨9, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x24 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  transposes_S512x512_p1_0_S512x512 : S512x512.Transposes [1, 0] S512x512
  reduces_S512x512_S512 : S512x512.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  natLt_1_32 : 1 < 32
  inb_S512x24_S512x24_0_0 : ∀ a, (![0, 0] : Fin 2 → Nat) a + S512x24.size a ≤ S512x24.size a
  h_S512x24 : 0 < S512x24.numel
  transposes_S512x24_p1_0_S24x512 : S512x24.Transposes [1, 0] S24x512
  inb_S1x1_S1x1_0_0 : ∀ a, (![0, 0] : Fin 2 → Nat) a + S1x1.size a ≤ S1x1.size a
  h_S1x1 : 0 < S1x1.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reduces_S8x512_S8 : S8x512.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  dot_S512x512_S512x512_S512x512_1_0_0_1_n_n_wf : DotDims.WF S512x512 S512x512 S512x512 [1] [0] [0] [1] [] []
  dot_S512x24_S24x512_S512x512_1_0_0_1_n_n_wf : DotDims.WF S512x24 S24x512 S512x512 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S512x512.size a
  hwx1_0 : ∀ i : grid1.Coords, EltTy.bits .f32 = 32 ∨ (Rect.block (s := S512x512) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S512x512.size a
  hwx1_1 : ∀ i : grid1.Coords, EltTy.bits .f32 = 32 ∨ (Rect.block (s := S512x512) S8x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x24_S24x512_S512x512_1_0_0_1_n_n : DotDims S512x24 S24x512 S512x512 where
  lhsContracting := [1]
  rhsContracting := [0]
  lhsNonContracting := [0]
  rhsNonContracting := [1]
  lhsBatch := []
  rhsBatch := []
  wf := dot_S512x24_S24x512_S512x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0_0) true false (stage0_2 0) (sem0_2 0) (Memref.isWhole_whole _) (hstage0_2 0)

abbrev win0_3 : Pipeline.Window sig grid0 :=
  Pipeline.Window.whole (Memref.whole main_v0_1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x512 : Shape := ⟨2, ![512, 512]⟩
abbrev S512x24 : Shape := ⟨2, ![512, 24]⟩
abbrev S512x1x512 : Shape := ⟨3, ![512, 1, 512]⟩
abbrev S1x512x512 : Shape := ⟨3, ![1, 512, 512]⟩
abbrev S512x512x512 : Shape := ⟨3, ![512, 512, 512]⟩
abbrev S_ : Shape := ⟨0, ![]⟩
abbrev S24x512 : Shape := ⟨2, ![24, 512]⟩
abbrev S512x512x1 : Shape := ⟨3, ![512, 512, 1]⟩

abbrev nBuf : Space → Nat
  | .hbm => 66
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x24, .i32⟩
  | .hbm, ⟨2, _⟩ => ⟨S512x1x512, .f32⟩
  | .hbm, ⟨3, _⟩ => ⟨S1x512x512, .f32⟩
  | .hbm, ⟨4, _⟩ => ⟨S512x512x512, .f32⟩
  | .hbm, ⟨5, _⟩ => ⟨S512x512x512, .f32⟩
  | .hbm, ⟨6, _⟩ => ⟨S512x512x512, .f32⟩
  | .hbm, ⟨7, _⟩ => ⟨S512x512x512, .f32⟩
  | .hbm, ⟨8, _⟩ => ⟨S_, .f32⟩
  | .hbm, ⟨9, _⟩ => ⟨S512x512, .f32⟩
  | .hbm, ⟨10, _⟩ => ⟨S_, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .i1⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x24, .f32⟩
  | .hbm, ⟨28, _⟩ => ⟨S24x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .i1⟩
  | .hbm, ⟨33, _⟩ => ⟨S512x512, .f32⟩
  | .hbm, ⟨34, _⟩ => ⟨S512x512x1, .f32⟩
  | .hbm, ⟨35, _⟩ => ⟨S512x1x512, .f32⟩
  | .hbm, ⟨36, _⟩ => ⟨S_, .f32⟩
  | .hbm, ⟨37, _⟩ => ⟨S512x1x512, .f32⟩
  | .hbm, ⟨38, _⟩ => ⟨S512x1x512, .f32⟩
  | .hbm, ⟨39, _⟩ => ⟨S512x512x512, .f32⟩
  | .hbm, ⟨40, _⟩ => ⟨S512x512x512, .f32⟩
  | .hbm, ⟨41, _⟩ => ⟨S512x512x512, .f32⟩
  | .hbm, ⟨42, _⟩ => ⟨S512x512x1, .f32⟩
  | .hbm, ⟨43, _⟩ => ⟨S512x1x512, .f32⟩
  | .hbm, ⟨44, _⟩ => ⟨S_, .f32⟩
  | .hbm, ⟨45, _⟩ => ⟨S512x1x512, .f32⟩
  | .hbm, ⟨46, _⟩ => ⟨S512x1x512, .f32⟩
  | .hbm, ⟨47, _⟩ => ⟨S512x512x512, .f32⟩
  | .hbm, ⟨48, _⟩ => ⟨S512x512x512, .f32⟩
  | .hbm, ⟨49, _⟩ => ⟨S512x512x512, .f32⟩
  | .hbm, ⟨50, _⟩ => ⟨S512x512x512, .f32⟩
  | .hbm, ⟨51, _⟩ => ⟨S_, .f32⟩
  | .hbm, ⟨52, _⟩ => ⟨S_, .f32⟩
  | .hbm, ⟨53, _⟩ => ⟨S512x512x512, .f32⟩
  | .hbm, ⟨54, _⟩ => ⟨S512x512x512, .f32⟩
  | .hbm, ⟨55, _⟩ => ⟨S_, .f32⟩
  | .hbm, ⟨56, _⟩ => ⟨S512x512x512, .f32⟩
  | .hbm, ⟨57, _⟩ => ⟨S512x512x512, .i1⟩
  | .hbm, ⟨58, _⟩ => ⟨S512x512x512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  reducesTo_S512x512x512_S512x512_d2 : S512x512x512.ReducesTo [2] S512x512
  h_S_ : 0 < S_.numel
  bcast_S_S512x512 : S_.BroadcastsInDim S512x512 (![] : Fin 0 → Fin S512x512.rank)
  transposes_S512x24_S24x512_1_0 : S512x24.Transposes [1, 0] S24x512
  bcast_S512x512_S512x512x1_0_1 : S512x512.BroadcastsInDim S512x512x1 (![0, 1] : Fin 2 → Fin S512x512x1.rank)
  bcast_S_S512x1x512 : S_.BroadcastsInDim S512x1x512 (![] : Fin 0 → Fin S512x1x512.rank)
  bcast_S512x512x1_S512x512x512_0_1_2 : S512x512x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  dot_S512x24_S24x512_S512x512_1_0_0_1_n_n_wf : DotDims.WF S512x24 S24x512 S512x512 [1] [0] [0] [1] [] []

variable [Facts₀]

def dot_S512x24_S24x512_S512x512_1_0_0_1_n_n : DotDims S512x24 S24x512 S512x512 where
  lhsContracting := [1]
  rhsContracting := [0]
  lhsNonContracting := [0]
  rhsNonContracting := [1]
  lhsBatch := []
  rhsBatch := []
  wf := dot_S512x24_S24x512_S512x512_1_0_0_1_n_n_wf

class Facts : Prop extends Facts₀ where

variable [Facts]
-- ==== Proof.Spec.lean ====
/-
  The mathematics of the triplet loss, free of any program: over the extended reals, for a 512 x 512 matrix
  `X` of features and a 512 x 24 matrix `Lb` of integer labels,

    * the squared distance of rows `i` and `j`, in the two forms the two programs compute it:
      `|x_i|^2 + |x_j|^2 - 2 <x_i, x_j>` (`sqK`) and `sum_k (x_ik - x_jk)^2` (`sqR`), each clipped at zero;
    * the distance `distOf q = sqrt (q + [q = 0] eps) * (1 - [q = 0])` of a clipped squared distance `q`;
    * the similarity `sim i j = [ <lb_i, lb_j> > 0 ]`;
    * a triplet's hinge, in the two forms: `mask * max (d_ij - d_ik) 0` (`tripK`) and
      `max 0 (mask * (d_ij - 1 * d_ik))` (`tripR`), `mask = s_ij * (1 - s_ik)`;
    * the loss: the sum of all hinges over the number of hinges above `eps` (plus `eps`), summed by blocks
      of eight anchor rows in anchor order (`kernelRes`) or over all triplets at once (`refRes`).

  The float words are kept as the words they are (`w0`, `w1`, `w2`, `weps`); only `0`, `1` and `2` are ever evaluated.
-/
import Idealize.ShloMosaic.PureOps.Ideal
import Idealize.ShloMosaic.PureOps.Ideal.Laws

noncomputable section

namespace Cert.Spec

open Idealize.ShloMosaic

/-- A one-bit word as a float: `0` or `1`. -/
def bit (b : BitVec 1) : EReal := ((b.toNat : ℝ) : EReal)

/-- A 32-bit integer word as a float: its signed value. -/
def sI (b : BitVec 32) : EReal := ((b.toInt : ℝ) : EReal)

/-- The float words of the two programs. -/
abbrev w0 : EReal := Ideal.ofBits .f32 0x00000000#32
abbrev w1 : EReal := Ideal.ofBits .f32 0x3F800000#32
abbrev w2 : EReal := Ideal.ofBits .f32 0x40000000#32
abbrev weps : EReal := Ideal.ofBits .f32 0x24E69595#32

/-- The distance of a clipped squared distance `q`: `sqrt (q + [q = 0] eps) * (1 - [q = 0])`. -/
def distOf (q : EReal) : EReal :=
  Ideal.sqrt (q + bit (Ideal.cmp .oeq q w0) * weps) * (w1 - bit (Ideal.cmp .oeq q w0))

/-- The clipped squared distance of rows `i`, `j` through the Gram matrix. -/
def sqK (X : Fin 512 → Fin 512 → EReal) (i j : Fin 512) : EReal :=
  max (((∑ k : Fin 512, X i k * X i k) + (∑ k : Fin 512, X j k * X j k)) - w2 * (∑ k : Fin 512, X i k * X j k)) w0

/-- The clipped squared distance of rows `i`, `j` as the sum of squared differences. -/
def sqR (X : Fin 512 → Fin 512 → EReal) (i j : Fin 512) : EReal :=
  max w0 (w0 + ∑ k : Fin 512, (X i k - X j k) * (X i k - X j k))

/-- Rows `i` and `j` share a label: the inner product of their label rows is positive. -/
def sim (Lb : Fin 512 → Fin 24 → BitVec 32) (i j : Fin 512) : EReal :=
  bit (Ideal.cmp .ogt (∑ l : Fin 24, sI (Lb i l) * sI (Lb j l)) w0)

/-- The hinge of the triplet (anchor `i`, positive `j`, negative `k`): the mask times the clipped difference. -/
def tripK (d s : Fin 512 → Fin 512 → EReal) (i j k : Fin 512) : EReal :=
  (s i j * (w1 - s i k)) * max (d i j - d i k) w0

/-- The same hinge as the clipped masked difference. -/
def tripR (d s : Fin 512 → Fin 512 → EReal) (i j k : Fin 512) : EReal :=
  max w0 ((s i j * (w1 - s i k)) * (d i j - w1 * d i k))

/-- Whether a hinge counts: it exceeds `eps`. -/
def cnt (z : EReal) : EReal := bit (Ideal.cmp .ogt z weps)

/-- Row `a` of the `t`-th block of eight anchor rows. -/
def row (t : ℕ) (a : Fin 8) : Fin 512 := ⟨(8 * t + a.val) % 512, Nat.mod_lt _ (by decide)⟩

/-- The hinges of block `t`, summed. -/
def blkS (d s : Fin 512 → Fin 512 → EReal) (t : ℕ) : EReal :=
  ∑ a : Fin 8, ∑ j : Fin 512, ∑ k : Fin 512, tripK d s (row t a) j k

/-- The counting hinges of block `t`, counted. -/
def blkC (d s : Fin 512 → Fin 512 → EReal) (t : ℕ) : EReal :=
  ∑ a : Fin 8, ∑ j : Fin 512, ∑ k : Fin 512, cnt (tripK d s (row t a) j k)

/-- The loss, summed block by block over the Gram-matrix distances. -/
def kernelRes (X : Fin 512 → Fin 512 → EReal) (Lb : Fin 512 → Fin 24 → BitVec 32) : EReal :=
  Ideal.div (w0 + ∑ t ∈ Finset.range 64, blkS (fun i j => distOf (sqK X i j)) (sim Lb) t)
    ((w0 + ∑ t ∈ Finset.range 64, blkC (fun i j => distOf (sqK X i j)) (sim Lb) t) + weps)

/-- The loss, summed over all triplets at once over the squared-difference distances. -/
def refRes (X : Fin 512 → Fin 512 → EReal) (Lb : Fin 512 → Fin 24 → BitVec 32) : EReal :=
  Ideal.div (w0 + ∑ i : Fin 512, ∑ j : Fin 512, ∑ k : Fin 512, tripR (fun i j => distOf (sqR X i j)) (sim Lb) i j k)
    ((w0 + ∑ i : Fin 512, ∑ j : Fin 512, ∑ k : Fin 512, cnt (tripR (fun i j => distOf (sqR X i j)) (sim Lb) i j k)) + weps)

end Cert.Spec

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Precompute.lean ====
/-
  What the first kernel computes, index by index at the ideal values: the distance matrix and the similarity matrix.
-/
import proofs.«162565_j50190987821742_1_alg».proof.Proof.Gen.KernelIdeal.Skeleton
import proofs.«162565_j50190987821742_1_alg».proof.Proof.Spec
import proofs.«162565_j50190987821742_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Precompute

open Idealize.ShloMosaic Idealize.ShloMosaic.ValueIdx Cert.KernelIdeal Cert.KernelIdeal.Gen Cert.Spec

/-! ## The keepdims column forms -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The non-pointwise operations of the two payloads -/

/-- The sum along a row: the lane reduction of a 512 x 512 matrix read at row `r`. -/
theorem rowSum_apply (src : FVec Ideal S512x512 .f32) (h : S512x512.Reduces [1] S512) (hφ : FKind.Formats .f32)
    (hacc : (0x00000000#32 : BitVec 32) = 0x00000000#32) (r : Fin 512) :
    multiReduction .add [1] S512 src 0x00000000#32 h hφ hacc (ix1 r) = ∑ k : Fin 512, src (ix2 r k) := by
  refine (Ideal.multiReduction_add_single src 0x00000000#32 h hφ hacc (ix1 r)).trans ?_
  refine Finset.sum_congr rfl fun k _ => congrArg src ?_
  funext a
  match a with
  | ⟨0, _⟩ => exact Fin.ext rfl
  | ⟨1, _⟩ => exact Fin.ext rfl

/-- A one-bit word widened and read as a signed integer is `0` or `1`. -/
theorem sitofp_bit (b : BitVec 1) : FloatOps.sitofp (F := Ideal) .f32 (b.setWidth 32) = bit b := by
  by_cases hb : b = 1#1
  · subst hb
    show (((((1#1 : BitVec 1).setWidth 32).toInt : ℤ) : ℝ) : EReal) = (((1#1 : BitVec 1).toNat : ℝ) : EReal)
    have h1 : ((1#1 : BitVec 1).setWidth 32).toInt = 1 := by decide
    have h2 : (1#1 : BitVec 1).toNat = 1 := by decide
    rw [h1, h2]; norm_num
  · have hb0 := eq_zero_of_ne_one hb
    subst hb0
    show (((((0#1 : BitVec 1).setWidth 32).toInt : ℤ) : ℝ) : EReal) = (((0#1 : BitVec 1).toNat : ℝ) : EReal)
    have h1 : ((0#1 : BitVec 1).setWidth 32).toInt = 0 := by decide
    have h2 : (0#1 : BitVec 1).toNat = 0 := by decide
    rw [h1, h2]; norm_num

/-- The Gram matrix: the product of the matrix with its transpose into the zero accumulator, read at `(p, q)`. -/
theorem gram_apply (x : FVec Ideal S512x512 .bf16) (ht : S512x512.Transposes [1, 0] S512x512) (p q : Fin 512) :
    matmul dot_S512x512_S512x512_S512x512_1_0_0_1_n_n none x (transpose S512x512 [1, 0] x ht)
        (constant (F := Ideal) S512x512 .f32 0x00000000#32) (ix2 p q)
      = ∑ k : Fin 512, x (ix2 p k) * x (ix2 q k) := by
  show matmul (DotDims.plain 512 512 512) none x (transpose ⟨2, ![512, 512]⟩ [1, 0] x ht)
    (constant (F := Ideal) ⟨2, ![512, 512]⟩ .f32 0x00000000#32) (ix2 p q) = _
  refine (PlainDot.matmul_zero_apply 512 512 512 none x _ (ix2 p q)).trans ?_
  refine Finset.sum_congr rfl fun k _ => ?_
  show x (ix2 p k) * transpose ⟨2, ![512, 512]⟩ [1, 0] x ht (ix2 k q) = _
  rw [transpose_ix2_apply]

/-- The label products: the product of the label matrix with its transpose into the zero accumulator, read at `(p, q)`. -/
theorem labelGram_apply (x : FVec Ideal S512x24 .bf16) (ht : S512x24.Transposes [1, 0] S24x512) (p q : Fin 512) :
    matmul dot_S512x24_S24x512_S512x512_1_0_0_1_n_n none x (transpose S24x512 [1, 0] x ht)
        (constant (F := Ideal) S512x512 .f32 0x00000000#32) (ix2 p q)
      = ∑ l : Fin 24, x (ix2 p l) * x (ix2 q l) := by
  show matmul (DotDims.plain 512 24 512) none x (transpose ⟨2, ![24, 512]⟩ [1, 0] x ht)
    (constant (F := Ideal) ⟨2, ![512, 512]⟩ .f32 0x00000000#32) (ix2 p q) = _
  refine (PlainDot.matmul_zero_apply 512 24 512 none x _ (ix2 p q)).trans ?_
  refine Finset.sum_congr rfl fun l _ => ?_
  show x (ix2 p l) * transpose ⟨2, ![24, 512]⟩ [1, 0] x ht (ix2 l q) = _
  rw [transpose_ix2_apply]

/-- The square root of a vector is taken entry by entry. -/
theorem sqrt_apply {s : Shape} {φ : FTy} (a : FVec Ideal s φ) (i : s.Idx) : sqrt a i = Ideal.sqrt (a i) := rfl

/-- Entry (i, j) of the first output: the distance of rows i and j through the Gram matrix. -/
theorem pay1_apply (x : Vec Ideal S512x512 .f32) (i j : Fin 512) :
    k0_pay1 (F := Ideal) x (ix2 i j) = distOf (sqK (fun a b => x (ix2 a b)) i j) := by
  have hS : ∀ r : Fin 512,
      multiReduction (F := Ideal) (φ := .f32) .add [1] S512 (mulf (F := Ideal) (φ := .f32) x x) 0x00000000#32 Facts₀.reduces_S512x512_S512 (.inl rfl) rfl (ix1 r)
        = ∑ k : Fin 512, x (ix2 r k) * x (ix2 r k) := by
    intro r
    exact rowSum_apply (mulf (F := Ideal) (φ := .f32) x x) _ _ rfl r
  have hG : matmul dot_S512x512_S512x512_S512x512_1_0_0_1_n_n none (truncf (F := Ideal) (φ := .f32) .bf16 x Facts₀.bitsLt_bf16_f32)
        (transpose S512x512 [1, 0] (truncf (F := Ideal) (φ := .f32) .bf16 x Facts₀.bitsLt_bf16_f32) Facts₀.transposes_S512x512_p1_0_S512x512)
        (constant (F := Ideal) S512x512 .f32 0x00000000#32) (ix2 i j)
      = ∑ k : Fin 512, x (ix2 i k) * x (ix2 j k) := by
    exact gram_apply _ _ i j
  unfold k0_pay1
  dsimp only
  simp only [mulf_apply, addf_apply, subf_apply, maximumf_apply, broadcast_apply, cmpf_apply, extui_apply, sitofp_apply,
    sqrt_apply]
  simp only [broadcastTo_a1_ab_apply, broadcastTo_1b_ab_apply, shapeCast_a_a1_apply, sitofp_bit, Ideal.cmpf_def]
  rw [transpose_ix2_apply]
  simp only [shapeCast_a_a1_apply, hS, hG]
  rfl

/-- Entry (i, j) of the second output: whether rows i and j share a label. -/
theorem pay2_apply (lb : Vec Ideal S512x24 .i32) (i j : Fin 512) :
    k0_pay2 (F := Ideal) lb (ix2 i j) = sim (fun a l => lb (ix2 a l)) i j := by
  have hG : matmul dot_S512x24_S24x512_S512x512_1_0_0_1_n_n none (sitofp .bf16 lb : FVec Ideal S512x24 .bf16)
        (transpose S24x512 [1, 0] (sitofp .bf16 lb : FVec Ideal S512x24 .bf16) Facts₀.transposes_S512x24_p1_0_S24x512)
        (constant (F := Ideal) S512x512 .f32 0x00000000#32) (ix2 i j)
      = ∑ l : Fin 24, sI (lb (ix2 i l)) * sI (lb (ix2 j l)) := by
    exact labelGram_apply _ _ i j
  unfold k0_pay2
  dsimp only
  simp only [broadcast_apply, cmpf_apply, extui_apply, sitofp_apply, sitofp_bit, Ideal.cmpf_def, hG]
  rfl

end Cert.KernelIdeal.Precompute

end
-- ==== Proof.TripletValue.lean ====
/-
  What the second kernel's body computes from a block of eight rows of distances and of similarities, at the ideal
  values: the sum of the block's hinges and the count of those above the threshold.
-/
import proofs.«162565_j50190987821742_1_alg».proof.Proof.Gen.KernelIdeal.Skeleton
import proofs.«162565_j50190987821742_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TripletValue

open Idealize.ShloMosaic Idealize.ShloMosaic.ValueIdx Cert.KernelIdeal Cert.KernelIdeal.Gen Cert.Spec

/-- The hinge of (row a of the block, j, k), from the block's distances `xd` and similarities `xs`. -/
def tripB (xd xs : Vec Ideal S8x512 .f32) (a : Fin 8) (j k : Fin 512) : EReal :=
  (xs (ix2 a j) * (w1 - xs (ix2 a k))) * max (xd (ix2 a j) - xd (ix2 a k)) w0

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[8, 512, 1]` array broadcast to `[8, 512, 512]` reads, at `(i, j, k)`, the operand's column at `(i, j)`. -/
theorem broadcastTo_col_apply (v : S8x512x1.Idx → α) (h : S8x512x1.Broadcasts S8x512x512)
    (i : Fin 8) (j k : Fin 512) : broadcastTo S8x512x512 v h (ix3 i j k) = v (ix3 i j (0 : Fin 1)) := by
  refine broadcastTo_apply v h (ix3 i j k) (ix3 i j (0 : Fin 1)) fun ax => ?_
  match ax with
  | ⟨0, _⟩ => rfl
  | ⟨1, _⟩ => rfl
  | ⟨2, _⟩ => rfl

/-- An `[8, 1, 512]` array broadcast to `[8, 512, 512]` reads, at `(i, j, k)`, the operand's row at `(i, k)`. -/
theorem broadcastTo_row_apply (v : S8x1x512.Idx → α) (h : S8x1x512.Broadcasts S8x512x512)
    (i : Fin 8) (j k : Fin 512) : broadcastTo S8x512x512 v h (ix3 i j k) = v (ix3 i (0 : Fin 1) k) := by
  refine broadcastTo_apply v h (ix3 i j k) (ix3 i (0 : Fin 1) k) fun ax => ?_
  match ax with
  | ⟨0, _⟩ => rfl
  | ⟨1, _⟩ => rfl
  | ⟨2, _⟩ => rfl

end Layout

/-- The hinge the second kernel forms at `(a, j, k)` of its block. -/
theorem pay5_apply (xd xs : Vec Ideal S8x512 .f32) (a : Fin 8) (j k : Fin 512) :
    k1_pay5 (F := Ideal) xd xs (ix3 a j k) = tripB xd xs a j k := by
  unfold k1_pay5 tripB
  simp only [mulf_apply, subf_apply, maximumf_apply, broadcast_apply, shapeCast_self,
    broadcastTo_col_apply, broadcastTo_row_apply, shapeCast_ab_ab1_apply, shapeCast_ab_a1b_apply]
  rfl

section Reductions

/-- The sum over the last axis of an `[8, 512, 512]` array, at `(a, j)`. -/
theorem sumLast_apply (src : FVec Ideal S8x512x512 .f32) (h : S8x512x512.Reduces [2] S8x512) (hφ : FKind.Formats .f32)
    (hacc : (0x00000000#32 : BitVec 32) = FKind.add.neutral .f32 hφ) (a : Fin 8) (j : Fin 512) :
    multiReduction .add [2] S8x512 src 0x00000000#32 h hφ hacc (ix2 a j) = ∑ k : Fin 512, src (ix3 a j k) := by
  refine (Ideal.multiReduction_add_single src _ h hφ hacc (ix2 a j)).trans ?_
  show ∑ k : Fin 512, src (h.lift (ix2 a j) k) = _
  refine Finset.sum_congr rfl fun k _ => congrArg src ?_
  funext ax
  refine Fin.ext ?_
  match ax with
  | ⟨0, _⟩ => rfl
  | ⟨1, _⟩ => rfl
  | ⟨2, _⟩ => rfl

/-- The sum over the columns of an `[8, 512]` array, at `a`. -/
theorem sumCols_apply (src : FVec Ideal S8x512 .f32) (h : S8x512.Reduces [1] S8) (hφ : FKind.Formats .f32)
    (hacc : (0x00000000#32 : BitVec 32) = FKind.add.neutral .f32 hφ) (a : Fin 8) :
    multiReduction .add [1] S8 src 0x00000000#32 h hφ hacc (ix1 a) = ∑ j : Fin 512, src (ix2 a j) := by
  refine (Ideal.multiReduction_add_single src _ h hφ hacc (ix1 a)).trans ?_
  show ∑ j : Fin 512, src (h.lift (ix1 a) j) = _
  refine Finset.sum_congr rfl fun j _ => congrArg src ?_
  funext ax
  refine Fin.ext ?_
  match ax with
  | ⟨0, _⟩ => rfl
  | ⟨1, _⟩ => rfl

/-- The sum of the one row of a `[1, 8]` array. -/
theorem sumRow_apply (src : FVec Ideal S1x8 .f32) (h : S1x8.Reduces [1] S1) (hφ : FKind.Formats .f32)
    (hacc : (0x00000000#32 : BitVec 32) = FKind.add.neutral .f32 hφ) (u : Fin 1) :
    multiReduction .add [1] S1 src 0x00000000#32 h hφ hacc (ix1 u) = ∑ a : Fin 8, src (ix2 u a) := by
  refine (Ideal.multiReduction_add_single src _ h hφ hacc (ix1 u)).trans ?_
  show ∑ a : Fin 8, src (h.lift (ix1 u) a) = _
  refine Finset.sum_congr rfl fun a _ => congrArg src ?_
  funext ax
  refine Fin.ext ?_
  match ax with
  | ⟨0, _⟩ => rfl
  | ⟨1, _⟩ => rfl

/-- The kernel's chain of sums over an `[8, 512, 512]` array, read as a scalar: the sum of all its elements in
    anchor order. -/
theorem total_apply (src : FVec Ideal S8x512x512 .f32)
    (h2 : S8x512x512.Reduces [2] S8x512) (h1 : S8x512.Reduces [1] S8) (hc : S8.ShapeCasts S1x8)
    (h0 : S1x8.Reduces [1] S1) (hc' : S1.ShapeCasts S1x1) (hp : ∀ a, (![0, 0] : Fin 2 → Nat) a < S1x1.size a)
    (hφ : FKind.Formats .f32) (hacc : (0x00000000#32 : BitVec 32) = FKind.add.neutral .f32 hφ) :
    extractAt ![0, 0]
      (shapeCast S1x1
        (multiReduction .add [1] S1
          (shapeCast S1x8
            (multiReduction .add [1] S8 (multiReduction .add [2] S8x512 src 0x00000000#32 h2 hφ hacc) 0x00000000#32 h1 hφ hacc)
            hc)
          0x00000000#32 h0 hφ hacc)
        hc') hp
      = ∑ a : Fin 8, ∑ j : Fin 512, ∑ k : Fin 512, src (ix3 a j k) := by
  unfold extractAt
  have hidx : (fun a : Fin S1x1.rank => (⟨(![0, 0] : Fin 2 → Nat) a, hp a⟩ : Fin (S1x1.size a)))
      = ix2 (0 : Fin 1) (0 : Fin 1) := by
    funext ax
    match ax with
    | ⟨0, _⟩ => rfl
    | ⟨1, _⟩ => rfl
  rw [hidx]
  refine (shapeCast_a_1a_apply _ hc' (0 : Fin 1) (0 : Fin 1)).trans ?_
  refine (sumRow_apply _ h0 hφ hacc (0 : Fin 1)).trans ?_
  refine Finset.sum_congr rfl fun a _ => ?_
  refine (shapeCast_a_1a_apply _ hc (0 : Fin 1) a).trans ?_
  refine (sumCols_apply _ h1 hφ hacc a).trans ?_
  refine Finset.sum_congr rfl fun j _ => ?_
  exact sumLast_apply src h2 hφ hacc a j

end Reductions

/-- The block's hinges, summed. -/
theorem pay8_apply (xd xs : Vec Ideal S8x512 .f32) (p : S1x1.Idx) :
    k1_pay8 (F := Ideal) xd xs p = ∑ a : Fin 8, ∑ j : Fin 512, ∑ k : Fin 512, tripB xd xs a j k := by
  unfold k1_pay8
  refine (total_apply (k1_pay5 (F := Ideal) xd xs) _ _ _ _ _ _ _ _).trans ?_
  exact Finset.sum_congr rfl fun a _ => Finset.sum_congr rfl fun j _ => Finset.sum_congr rfl fun k _ =>
    pay5_apply xd xs a j k

/-- A one-bit word widened to 32 bits and read signed is the bit as a float. -/
theorem bit_widen (b : BitVec 1) : (((b.setWidth 32).toInt : ℝ) : EReal) = bit b := by
  have h : (b.setWidth 32).toInt = ((b.toNat : ℕ) : ℤ) := by
    rcases BitVec.eq_zero_or_eq_one b with h | h <;> subst h <;> decide
  unfold bit
  rw [h, Int.cast_natCast]

/-- Whether the hinge at `(a, j, k)` counts, as the kernel forms it: compare above the threshold, widen, convert. -/
theorem cnt_apply (xd xs : Vec Ideal S8x512 .f32) (h : 1 < 32) (a : Fin 8) (j k : Fin 512) :
    (sitofp .f32 (extui 32 (cmpf .ogt (k1_pay5 (F := Ideal) xd xs)
        (broadcast S8x512x512 (Scalar.ofBits (F := Ideal) .f32 0x24E69595#32))) h) : FVec Ideal S8x512x512 .f32) (ix3 a j k)
      = cnt (tripB xd xs a j k) := by
  rw [sitofp_apply, extui_apply, cmpf_apply, broadcast_apply, pay5_apply, Ideal.cmpf_def]
  exact bit_widen _

/-- The block's hinges above the threshold, counted. -/
theorem pay6_apply (xd xs : Vec Ideal S8x512 .f32) :
    k1_pay6 (F := Ideal) xd xs = ∑ a : Fin 8, ∑ j : Fin 512, ∑ k : Fin 512, cnt (tripB xd xs a j k) := by
  unfold k1_pay6
  refine (total_apply _ _ _ _ _ _ _ _ _).trans ?_
  exact Finset.sum_congr rfl fun a _ => Finset.sum_congr rfl fun j _ => Finset.sum_congr rfl fun k _ =>
    cnt_apply xd xs _ a j k

end Cert.KernelIdeal.TripletValue

end
-- ==== Proof.TripletBody.lean ====
/-
  The second kernel over its grid: what each of the two control cases leaves in the two accumulators, the
  accumulators after point n as running sums, and the two result arrays after the last point.
-/
import proofs.«162565_j50190987821742_1_alg».proof.Proof.Gen.KernelIdeal.Frame
import proofs.«162565_j50190987821742_1_alg».proof.Proof.Spec
import Idealize.ShloMosaic.Lib.ValueIdx
import Idealize.ShloMosaic.Lib.Pipeline.Value
import Idealize.ShloMosaic.Lib.Tactic

noncomputable section

namespace Cert.KernelIdeal.TripletBody

open Idealize.ShloMosaic Idealize.ShloMosaic.TcCoe Idealize.SL.Sem Idealize.ShloMosaic.ValueIdx
open Idealize.ShloMosaic.Pipeline (Dat)
open Cert.KernelIdeal Cert.KernelIdeal.Gen Cert.Spec

section Pieces
variable {F : FTy → Type} [FloatOps F]

/-- The zero offsets of a (1,1) or (8,512) access, however they are spelt. -/
theorem hz : (![0, 0] : Fin 2 → Nat) = fun _ => 0 := funext fun a => by fin_cases a <;> rfl

/-- The first point (the accumulators are reset, then updated): the sum accumulator. -/
theorem out_A_2 (c : Dev nD) (i : grid1.Coords) (a1 : Memref sig .tc .vmem S8x512 .f32) (h1 : a1.IsWhole)
    (a2 : Memref sig .tc .vmem S8x512 .f32) (h2 : a2.IsWhole) (a3 : Memref sig .tc .vmem S1x1 .f32) (h3 : a3.IsWhole)
    (a4 : Memref sig .tc .vmem S1x1 .f32) (h4 : a4.IsWhole) (hc : cond1_0 i) (x0 x1 : Vec F S8x512 .f32) :
    out1_A_2 c i a1 h1 a2 h2 a3 h3 a4 h4 hc x0 x1 = k1_pay1 (k1_pay7 (k1_pay3 (F := F))) (k1_pay8 x0 x1) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x1) hz]
  simp only [View.readCov_unit_zero (S := S1x1) _ hz, View.readAt_eq_ld, h1.read_unread, h2.read_unread, h3.read_unread,
    h4.read_unread, View.ld_unit_zero (S := S8x512) hz, View.ld_unit_zero (S := S1x1) hz]

/-- The first point: the count accumulator. -/
theorem out_A_3 (c : Dev nD) (i : grid1.Coords) (a1 : Memref sig .tc .vmem S8x512 .f32) (h1 : a1.IsWhole)
    (a2 : Memref sig .tc .vmem S8x512 .f32) (h2 : a2.IsWhole) (a3 : Memref sig .tc .vmem S1x1 .f32) (h3 : a3.IsWhole)
    (a4 : Memref sig .tc .vmem S1x1 .f32) (h4 : a4.IsWhole) (hc : cond1_0 i) (x0 x1 : Vec F S8x512 .f32) :
    out1_A_3 c i a1 h1 a2 h2 a3 h3 a4 h4 hc x0 x1 = k1_pay2 (k1_pay6 x0 x1) (k1_pay4 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x1) hz]
  simp only [View.readCov_unit_zero (S := S1x1) _ hz, View.readAt_eq_ld, h1.read_unread, h2.read_unread, h3.read_unread,
    h4.read_unread, View.ld_unit_zero (S := S8x512) hz, View.ld_unit_zero (S := S1x1) hz]

/-- A later point (the accumulators hold `xo2`, `xo3`): the sum accumulator. -/
theorem out_B_2 (c : Dev nD) (i : grid1.Coords) (a1 : Memref sig .tc .vmem S8x512 .f32) (h1 : a1.IsWhole)
    (a2 : Memref sig .tc .vmem S8x512 .f32) (h2 : a2.IsWhole) (a3 : Memref sig .tc .vmem S1x1 .f32) (h3 : a3.IsWhole)
    (a4 : Memref sig .tc .vmem S1x1 .f32) (h4 : a4.IsWhole) (hc : ¬cond1_0 i) (x0 x1 : Vec F S8x512 .f32)
    (xo2 xo3 : Vec F S1x1 .f32) :
    out1_B_2 c i a1 h1 a2 h2 a3 h3 a4 h4 hc x0 x1 xo2 xo3 = k1_pay1 (k1_pay7 xo2) (k1_pay8 x0 x1) := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_cons_unit_zero (S := S1x1) hz]
  simp only [View.readCov_unit_zero (S := S1x1) _ hz, View.readAt_eq_ld, h1.read_unread, h2.read_unread, h3.read_unread,
    h4.read_unread, View.ld_unit_zero (S := S8x512) hz, View.ld_unit_zero (S := S1x1) hz]

/-- A later point: the count accumulator. -/
theorem out_B_3 (c : Dev nD) (i : grid1.Coords) (a1 : Memref sig .tc .vmem S8x512 .f32) (h1 : a1.IsWhole)
    (a2 : Memref sig .tc .vmem S8x512 .f32) (h2 : a2.IsWhole) (a3 : Memref sig .tc .vmem S1x1 .f32) (h3 : a3.IsWhole)
    (a4 : Memref sig .tc .vmem S1x1 .f32) (h4 : a4.IsWhole) (hc : ¬cond1_0 i) (x0 x1 : Vec F S8x512 .f32)
    (xo2 xo3 : Vec F S1x1 .f32) :
    out1_B_3 c i a1 h1 a2 h2 a3 h3 a4 h4 hc x0 x1 xo2 xo3 = k1_pay2 (k1_pay6 x0 x1) xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_cons_unit_zero (S := S1x1) hz]
  simp only [View.readCov_unit_zero (S := S1x1) _ hz, View.readAt_eq_ld, h1.read_unread, h2.read_unread, h3.read_unread,
    h4.read_unread, View.ld_unit_zero (S := S8x512) hz, View.ld_unit_zero (S := S1x1) hz]

theorem h63 : 63 < cfg1.N := by rw [show cfg1.N = 64 from N_1]; decide

/-- The one write-back of the sum accumulator, at point 63, writes what the body left there: block (0, 0) of the
    (1,1) array read through zero offsets is the array. -/
theorem flushed_2 (V : (c : Dev nD) → (b : Ref sig .tc) → Buf (Elt F) ((c : Thread nD τ).loc b)) (c : Dev nD)
    (t : Fin cfg1.N) (hf : (cfg1.win 2).flush t = true) :
    (dat1 V c).flushed 2 t = ((cfg1.win 2).blk t).view.read (Elt F) (outsAt1 V c 63 h63).1 := by
  have hN : cfg1.N = 64 := N_1
  have h3 : t.val = 63 := by have := (flush1_2 t).mp hf; have := t.isLt; omega
  obtain rfl : t = ⟨63, h63⟩ := Fin.ext h3
  show (cfg1.win 2).cut (grid1.coords ⟨63, h63⟩) ((dat1 V c).after 2 ⟨63, h63⟩) = _
  rw [after1_2]
  have hz' : (fun a => win1_2.index ⟨63, h63⟩ a * main_v1_0.ty.shape.size a) = fun _ => 0 :=
    funext fun a => by fin_cases a <;> decide
  exact (Memref.read_access_unit_zero (Elt F) main_v1_0 hz' (fun a => by rw [congrFun hz' a]; simp) (outsAt1 V c 63 h63).1).symm

/-- After the last point the first result array holds the sum accumulator: its one block is the array, written back once. -/
theorem arr1_2 (V : (c : Dev nD) → (b : Ref sig .tc) → Buf (Elt F) ((c : Thread nD τ).loc b)) (c : Dev nD) :
    ((dat1 V c).arrAt 2 cfg1.N : Vec F S1x1 .f32) = (outsAt1 V c 63 h63).1 :=
  (dat1 V c).arrAt_eq_of_cover 2 (outsAt1 V c 63 h63).1 (flushed_2 V c) fun i =>
    ⟨⟨63, h63⟩, (flush1_2 ⟨63, h63⟩).mpr rfl, by
      show i ∈ ((View.whole main_v1_0).slice (win1_2.rect ⟨63, h63⟩)).set
      rw [View.set_slice_whole, Rect.mem_set_unit]
      intro a
      have h0 : (i 0 : Nat) < 1 := (i 0).isLt
      have h1 : (i 1 : Nat) < 1 := (i 1).isLt
      match a with
      | ⟨0, _⟩ => show win1_2.index ⟨63, h63⟩ 0 * win1_2.size 0 ≤ (i 0 : Nat) ∧ (i 0 : Nat) < win1_2.index ⟨63, h63⟩ 0 * win1_2.size 0 + win1_2.xsize (grid1.coords ⟨63, h63⟩) 0
                  rw [show win1_2.index ⟨63, h63⟩ 0 * win1_2.size 0 = 0 from by decide +kernel, show win1_2.xsize (grid1.coords ⟨63, h63⟩) 0 = 1 from by decide +kernel]; omega
      | ⟨1, _⟩ => show win1_2.index ⟨63, h63⟩ 1 * win1_2.size 1 ≤ (i 1 : Nat) ∧ (i 1 : Nat) < win1_2.index ⟨63, h63⟩ 1 * win1_2.size 1 + win1_2.xsize (grid1.coords ⟨63, h63⟩) 1
                  rw [show win1_2.index ⟨63, h63⟩ 1 * win1_2.size 1 = 0 from by decide +kernel, show win1_2.xsize (grid1.coords ⟨63, h63⟩) 1 = 1 from by decide +kernel]; omega⟩

/-- The one write-back of the count accumulator, at point 63, likewise. -/
theorem flushed_3 (V : (c : Dev nD) → (b : Ref sig .tc) → Buf (Elt F) ((c : Thread nD τ).loc b)) (c : Dev nD)
    (t : Fin cfg1.N) (hf : (cfg1.win 3).flush t = true) :
    (dat1 V c).flushed 3 t = ((cfg1.win 3).blk t).view.read (Elt F) (outsAt1 V c 63 h63).2 := by
  have hN : cfg1.N = 64 := N_1
  have h3 : t.val = 63 := by have := (flush1_3 t).mp hf; have := t.isLt; omega
  obtain rfl : t = ⟨63, h63⟩ := Fin.ext h3
  show (cfg1.win 3).cut (grid1.coords ⟨63, h63⟩) ((dat1 V c).after 3 ⟨63, h63⟩) = _
  rw [after1_3]
  have hz' : (fun a => win1_3.index ⟨63, h63⟩ a * main_v1_1.ty.shape.size a) = fun _ => 0 :=
    funext fun a => by fin_cases a <;> decide
  exact (Memref.read_access_unit_zero (Elt F) main_v1_1 hz' (fun a => by rw [congrFun hz' a]; simp) (outsAt1 V c 63 h63).2).symm

/-- After the last point the second result array holds the count accumulator. -/
theorem arr1_3 (V : (c : Dev nD) → (b : Ref sig .tc) → Buf (Elt F) ((c : Thread nD τ).loc b)) (c : Dev nD) :
    ((dat1 V c).arrAt 3 cfg1.N : Vec F S1x1 .f32) = (outsAt1 V c 63 h63).2 :=
  (dat1 V c).arrAt_eq_of_cover 3 (outsAt1 V c 63 h63).2 (flushed_3 V c) fun i =>
    ⟨⟨63, h63⟩, (flush1_3 ⟨63, h63⟩).mpr rfl, by
      show i ∈ ((View.whole main_v1_1).slice (win1_3.rect ⟨63, h63⟩)).set
      rw [View.set_slice_whole, Rect.mem_set_unit]
      intro a
      have h0 : (i 0 : Nat) < 1 := (i 0).isLt
      have h1 : (i 1 : Nat) < 1 := (i 1).isLt
      match a with
      | ⟨0, _⟩ => show win1_3.index ⟨63, h63⟩ 0 * win1_3.size 0 ≤ (i 0 : Nat) ∧ (i 0 : Nat) < win1_3.index ⟨63, h63⟩ 0 * win1_3.size 0 + win1_3.xsize (grid1.coords ⟨63, h63⟩) 0
                  rw [show win1_3.index ⟨63, h63⟩ 0 * win1_3.size 0 = 0 from by decide +kernel, show win1_3.xsize (grid1.coords ⟨63, h63⟩) 0 = 1 from by decide +kernel]; omega
      | ⟨1, _⟩ => show win1_3.index ⟨63, h63⟩ 1 * win1_3.size 1 ≤ (i 1 : Nat) ∧ (i 1 : Nat) < win1_3.index ⟨63, h63⟩ 1 * win1_3.size 1 + win1_3.xsize (grid1.coords ⟨63, h63⟩) 1
                  rw [show win1_3.index ⟨63, h63⟩ 1 * win1_3.size 1 = 0 from by decide +kernel, show win1_3.xsize (grid1.coords ⟨63, h63⟩) 1 = 1 from by decide +kernel]; omega⟩

end Pieces

section Fold
variable (V : (c : Dev nD) → (b : Ref sig .tc) → Buf (Elt Ideal) ((c : Thread nD τ).loc b))

/-- Block `t`'s sum of hinges as the body computes it from the two windows' blocks at point `t` (zero past the grid). -/
def payS (c : Dev nD) (t : ℕ) (p : S1x1.Idx) : EReal :=
  if h : t < cfg1.N then k1_pay8 (F := Ideal) (iblk1 V c 0 ⟨t, h⟩) (iblk1 V c 1 ⟨t, h⟩) p else 0

/-- Block `t`'s count as the body computes it (zero past the grid). -/
def payC (c : Dev nD) (t : ℕ) : EReal :=
  if h : t < cfg1.N then k1_pay6 (F := Ideal) (iblk1 V c 0 ⟨t, h⟩) (iblk1 V c 1 ⟨t, h⟩) else 0

/-- The sum payload at an index: the two addends' sum. -/
theorem pay1_apply (a b : Vec Ideal S1x1 .f32) (p : S1x1.Idx) : k1_pay1 (F := Ideal) a b p = a p + b p := rfl

/-- The cast to the same shape is the identity. -/
theorem pay7_eq (x : Vec Ideal S1x1 .f32) : k1_pay7 (F := Ideal) x = x := shapeCast_self x _

/-- The reset words are zero. -/
theorem pay3_apply (p : S1x1.Idx) : k1_pay3 (F := Ideal) p = w0 := rfl
theorem pay4_apply (p : S1x1.Idx) : k1_pay4 (F := Ideal) p = w0 := rfl

/-- The count payload at an index: the accumulator plus the block's count. -/
theorem pay2_apply (v : Ideal .f32) (x : Vec Ideal S1x1 .f32) (p : S1x1.Idx) : k1_pay2 (F := Ideal) v x p = x p + v := by
  show addf (shapeCast S1x1 x shapeCasts_S1x1_S1x1) (broadcast S1x1 v) p = _
  rw [shapeCast_self]
  rfl

/-- The accumulators after point `n`: zero plus the blocks' numbers up to `n`. -/
theorem outs_fold (c : Dev nD) (n : ℕ) (h : n < cfg1.N) (p : S1x1.Idx) :
    (outsAt1 V c n h).1 p = w0 + ∑ t ∈ Finset.range (n + 1), payS V c t p
    ∧ (outsAt1 V c n h).2 p = w0 + ∑ t ∈ Finset.range (n + 1), payC V c t := by
  induction n with
  | zero =>
    rw [outsAt1_A V c ⟨0, h⟩ rfl]
    dsimp only
    rw [out_A_2, out_A_3]
    refine ⟨?_, ?_⟩
    · rw [pay1_apply, pay7_eq, pay3_apply, Finset.sum_range_one]; unfold payS; rw [dif_pos h]
    · rw [pay2_apply, pay4_apply, Finset.sum_range_one]; unfold payC; rw [dif_pos h]
  | succ n ih =>
    have hN : cfg1.N = 64 := N_1
    have hB : ¬(⟨n + 1, h⟩ : Fin cfg1.N).val % 64 = 0 := by dsimp only; omega
    obtain ⟨ih1, ih2⟩ := ih (Nat.lt_of_succ_lt h)
    rw [outsAt1_B V c ⟨n + 1, h⟩ hB]
    dsimp only
    rw [out_B_2, out_B_3]
    refine ⟨?_, ?_⟩
    · rw [pay1_apply, pay7_eq, Finset.sum_range_succ, ← add_assoc]
      have e : payS V c (n + 1) p = k1_pay8 (F := Ideal) (iblk1 V c 0 ⟨n + 1, h⟩) (iblk1 V c 1 ⟨n + 1, h⟩) p := dif_pos h
      rw [e]
      exact congrArg (· + k1_pay8 (F := Ideal) (iblk1 V c 0 ⟨n + 1, h⟩) (iblk1 V c 1 ⟨n + 1, h⟩) p) ih1
    · rw [pay2_apply, Finset.sum_range_succ, ← add_assoc]
      have e : payC V c (n + 1) = k1_pay6 (F := Ideal) (iblk1 V c 0 ⟨n + 1, h⟩) (iblk1 V c 1 ⟨n + 1, h⟩) := dif_pos h
      rw [e]
      exact congrArg (· + k1_pay6 (F := Ideal) (iblk1 V c 0 ⟨n + 1, h⟩) (iblk1 V c 1 ⟨n + 1, h⟩)) ih2

end Fold

end Cert.KernelIdeal.TripletBody

end
-- ==== Proof.Blocks.lean ====
/-
  How the arrays flow between the two kernels and the host's last lines: the first kernel's two result arrays are
  its body's two values of the whole arguments; a block of the second kernel's windows is eight consecutive rows of
  its array; the program's result is the quotient of the two accumulators' single entries.
-/
import proofs.«162565_j50190987821742_1_alg».proof.Proof.Gen.KernelIdeal.Frame
import proofs.«162565_j50190987821742_1_alg».proof.Proof.Spec
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Spec

section Generic
variable {F : FTy → Type} [FloatOps F]
variable (V : (c : Dev nD) → (b : Ref sig .tc) → Buf (Elt F) ((c : Thread nD τ).loc b))

/-- The zero offsets of a two-axis access, however they are spelt. -/
theorem hz : (![0, 0] : Fin 2 → Nat) = fun _ => 0 := funext fun a => by fin_cases a <;> rfl

/-- The first kernel's one block of its first argument is the whole argument. -/
theorem iblk0_0 (c : Dev nD) (t : Fin cfg0.N) : (iblk0 V c 0 t : Vec F S512x512 .f32) = V c main_arg0 := by
  obtain rfl := fin_N0 t
  unfold iblk0
  have hz' : (fun a => win0_0.index t0_0 a * main_arg0.ty.shape.size a) = fun _ => 0 :=
    funext fun a => by fin_cases a <;> decide
  exact Memref.read_access_unit_zero (Elt F) main_arg0 hz' (fun a => by rw [congrFun hz' a]; simp) (V c main_arg0)

/-- Its one block of its second argument is the whole argument. -/
theorem iblk0_1 (c : Dev nD) (t : Fin cfg0.N) : (iblk0 V c 1 t : Vec F S512x24 .i32) = V c main_arg1 := by
  obtain rfl := fin_N0 t
  unfold iblk0
  have hz' : (fun a => win0_1.index t0_0 a * main_arg1.ty.shape.size a) = fun _ => 0 :=
    funext fun a => by fin_cases a <;> decide
  exact Memref.read_access_unit_zero (Elt F) main_arg1 hz' (fun a => by rw [congrFun hz' a]; simp) (V c main_arg1)

/-- The first kernel has one point, whose block is the whole array: its first result array is the body's first value. -/
theorem arr0_2 (c : Dev nD) :
    ((dat0 V c).arrAt 2 cfg0.N : Vec F S512x512 .f32) = k0_pay1 (V c main_arg0) := by
  refine (dat0 V c).arrAt_eq_of_cover 2 (k0_pay1 (V c main_arg0)) (fun t hf => ?_) (fun i => ⟨t0_0, flush0_2 t0_0, ?_⟩)
  · -- what the one point writes back: the body's one covering store, its load the whole block, read through zero offsets
    obtain rfl := fin_N0 t
    show (cfg0.win 2).cut (grid0.coords t0_0) ((dat0 V c).after 2 t0_0) = _
    rw [after0_2]
    unfold out0_2
    rw [View.canon_unit_zero hz]
    simp only [View.ld_unit_zero (S := S512x512) hz]
    rw [iblk0_0]
    have hz' : (fun a => win0_2.index t0_0 a * main_v0_0.ty.shape.size a) = fun _ => 0 :=
      funext fun a => by fin_cases a <;> decide
    exact (Memref.read_access_unit_zero (Elt F) main_v0_0 hz' (fun a => by rw [congrFun hz' a]; simp) _).symm
  -- the one block covers the array: offsets zero, sizes the array's
  · show i ∈ ((View.whole main_v0_0).slice (win0_2.rect t0_0)).set
    rw [View.set_slice_whole, Rect.mem_set_unit]
    intro a
    have h0 : (i 0 : Nat) < 512 := (i 0).isLt
    have h1 : (i 1 : Nat) < 512 := (i 1).isLt
    match a with
    | ⟨0, _⟩ =>
      show win0_2.index t0_0 0 * win0_2.size 0 ≤ (i 0 : Nat)
        ∧ (i 0 : Nat) < win0_2.index t0_0 0 * win0_2.size 0 + win0_2.xsize (grid0.coords t0_0) 0
      rw [show win0_2.index t0_0 0 * win0_2.size 0 = 0 from by decide +kernel,
        show win0_2.xsize (grid0.coords t0_0) 0 = 512 from by decide +kernel]
      omega
    | ⟨1, _⟩ =>
      show win0_2.index t0_0 1 * win0_2.size 1 ≤ (i 1 : Nat)
        ∧ (i 1 : Nat) < win0_2.index t0_0 1 * win0_2.size 1 + win0_2.xsize (grid0.coords t0_0) 1
      rw [show win0_2.index t0_0 1 * win0_2.size 1 = 0 from by decide +kernel,
        show win0_2.xsize (grid0.coords t0_0) 1 = 512 from by decide +kernel]
      omega

/-- Its second result array is the body's second value. -/
theorem arr0_3 (c : Dev nD) :
    ((dat0 V c).arrAt 3 cfg0.N : Vec F S512x512 .f32) = k0_pay2 (V c main_arg1) := by
  refine (dat0 V c).arrAt_eq_of_cover 3 (k0_pay2 (V c main_arg1)) (fun t hf => ?_) (fun i => ⟨t0_0, flush0_3 t0_0, ?_⟩)
  · obtain rfl := fin_N0 t
    show (cfg0.win 3).cut (grid0.coords t0_0) ((dat0 V c).after 3 t0_0) = _
    rw [after0_3]
    unfold out0_3
    rw [View.canon_unit_zero hz]
    simp only [View.ld_unit_zero (S := S512x24) hz]
    rw [iblk0_1]
    have hz' : (fun a => win0_3.index t0_0 a * main_v0_1.ty.shape.size a) = fun _ => 0 :=
      funext fun a => by fin_cases a <;> decide
    exact (Memref.read_access_unit_zero (Elt F) main_v0_1 hz' (fun a => by rw [congrFun hz' a]; simp) _).symm
  · show i ∈ ((View.whole main_v0_1).slice (win0_3.rect t0_0)).set
    rw [View.set_slice_whole, Rect.mem_set_unit]
    intro a
    have h0 : (i 0 : Nat) < 512 := (i 0).isLt
    have h1 : (i 1 : Nat) < 512 := (i 1).isLt
    match a with
    | ⟨0, _⟩ =>
      show win0_3.index t0_0 0 * win0_3.size 0 ≤ (i 0 : Nat)
        ∧ (i 0 : Nat) < win0_3.index t0_0 0 * win0_3.size 0 + win0_3.xsize (grid0.coords t0_0) 0
      rw [show win0_3.index t0_0 0 * win0_3.size 0 = 0 from by decide +kernel,
        show win0_3.xsize (grid0.coords t0_0) 0 = 512 from by decide +kernel]
      omega
    | ⟨1, _⟩ =>
      show win0_3.index t0_0 1 * win0_3.size 1 ≤ (i 1 : Nat)
        ∧ (i 1 : Nat) < win0_3.index t0_0 1 * win0_3.size 1 + win0_3.xsize (grid0.coords t0_0) 1
      rw [show win0_3.index t0_0 1 * win0_3.size 1 = 0 from by decide +kernel,
        show win0_3.xsize (grid0.coords t0_0) 1 = 512 from by decide +kernel]
      omega

/-- The block index of the second kernel's first window at point `t` is `(t, 0)`. -/
theorem idx1_0 : ∀ t : Fin cfg1.N, win1_0.index t 0 = t.val ∧ win1_0.index t 1 = 0 :=
  (by decide +kernel : ∀ t : Fin grid1.N, win1_0.index t 0 = t.val ∧ win1_0.index t 1 = 0)

/-- Point `t`'s block of the second kernel's first window: rows `8t … 8t+7` of the distance matrix. -/
theorem iblk1_0_apply (c : Dev nD) (t : Fin cfg1.N) (a : Fin 8) (j : Fin 512) :
    (iblk1 V c 0 t : Vec F S8x512 .f32) (ix2 a j) = (V c main_v0_0 : Vec F S512x512 .f32) (ix2 (row t.val a) j) := by
  have hN : cfg1.N = 64 := N_1
  have ht := t.isLt
  have hi := idx1_0 t
  unfold iblk1
  rw [View.read_apply]
  show V c main_v0_0 _ = V c main_v0_0 _
  congr 1
  funext b
  apply Fin.ext
  match b with
  | ⟨0, _⟩ =>
    -- row `8 t + a` of the array, below 512, so the remainder in `row` is the number itself
    show win1_0.index t 0 * 8 + 1 * a.val = (8 * t.val + a.val) % 512
    rw [hi.1, Nat.mod_eq_of_lt (by omega)]; omega
  | ⟨1, _⟩ =>
    show win1_0.index t 1 * 512 + 1 * j.val = j.val
    rw [hi.2]; omega

/-- The block index of the second kernel's second window at point `t` is `(t, 0)`. -/
theorem idx1_1 : ∀ t : Fin cfg1.N, win1_1.index t 0 = t.val ∧ win1_1.index t 1 = 0 :=
  (by decide +kernel : ∀ t : Fin grid1.N, win1_1.index t 0 = t.val ∧ win1_1.index t 1 = 0)

/-- Point `t`'s block of its second window: the same rows of the similarity matrix. -/
theorem iblk1_1_apply (c : Dev nD) (t : Fin cfg1.N) (a : Fin 8) (j : Fin 512) :
    (iblk1 V c 1 t : Vec F S8x512 .f32) (ix2 a j) = (V c main_v0_1 : Vec F S512x512 .f32) (ix2 (row t.val a) j) := by
  have hN : cfg1.N = 64 := N_1
  have ht := t.isLt
  have hi := idx1_1 t
  unfold iblk1
  rw [View.read_apply]
  show V c main_v0_1 _ = V c main_v0_1 _
  congr 1
  funext b
  apply Fin.ext
  match b with
  | ⟨0, _⟩ =>
    -- row `8 t + a` of the array, below 512, so the remainder in `row` is the number itself
    show win1_1.index t 0 * 8 + 1 * a.val = (8 * t.val + a.val) % 512
    rw [hi.1, Nat.mod_eq_of_lt (by omega)]; omega
  | ⟨1, _⟩ =>
    show win1_1.index t 1 * 512 + 1 * j.val = j.val
    rw [hi.2]; omega

end Generic

/-- The two accumulators' arrays after the second kernel, and the program's result after the host's last lines, each at
    its literal type. -/
abbrev sumArr (m : (ℓ : Loc nD τ sig) → Buf (Elt Ideal) ℓ) (ρ : Dev nD → PrngReg) (c : Dev nD) : Vec Ideal S1x1 .f32 :=
  W2 m ρ c (Proc.devRef .tc main_v1_0)
abbrev cntArr (m : (ℓ : Loc nD τ sig) → Buf (Elt Ideal) ℓ) (ρ : Dev nD → PrngReg) (c : Dev nD) : Vec Ideal S1x1 .f32 :=
  W2 m ρ c (Proc.devRef .tc main_v1_1)
abbrev resArr (m : (ℓ : Loc nD τ sig) → Buf (Elt Ideal) ℓ) (ρ : Dev nD → PrngReg) (c : Dev nD) : Vec Ideal S_ .f32 :=
  W3 m ρ c (Proc.devRef .tc main_v5)

/-- The host's last lines as one term: the first accumulator reshaped to a scalar, over the second reshaped plus
    the threshold word. -/
theorem resArr_eq (m : (ℓ : Loc nD τ sig) → Buf (Elt Ideal) ℓ) (ρ : Dev nD → PrngReg) (c : Dev nD) :
    resArr m ρ c = Host.divf (shapeCast S_ (sumArr m ρ c) shapeCasts_S1x1_S_)
      (addf (shapeCast S_ (cntArr m ρ c) shapeCasts_S1x1_S_) (constant (F := Ideal) S_ .f32 0x24E69595#32)) := by
  show StableHlo.after hostOps2 (W2 m ρ c) (Proc.devRef .tc main_v5) = _
  after_results
  rfl

/-- A one-entry matrix reshaped to a scalar reads its entry: both shapes have one row-major position. -/
theorem scalar_of_1x1 (x : Vec Ideal S1x1 .f32) (q : S_.Idx) : shapeCast S_ x shapeCasts_S1x1_S_ q = x (ix2 0 0) :=
  shapeCast_apply x shapeCasts_S1x1_S_ q (ix2 0 0) (by
    have h1 := (S1x1.rowMajor (ix2 0 0)).isLt
    have h2 := (S_.rowMajor q).isLt
    have e1 : S1x1.numel = 1 := by decide
    have e2 : S_.numel = 1 := by decide
    omega)

/-- The host's last lines at the ideal values: the result is the sum accumulator's entry over the count
    accumulator's entry plus the threshold word. -/
theorem tail_apply (m : (ℓ : Loc nD τ sig) → Buf (Elt Ideal) ℓ) (ρ : Dev nD → PrngReg) (c : Dev nD) (q : S_.Idx) :
    resArr m ρ c q = Ideal.div (sumArr m ρ c (ix2 0 0)) (cntArr m ρ c (ix2 0 0) + weps) := by
  rw [resArr_eq]
  show Ideal.div (shapeCast S_ (sumArr m ρ c) shapeCasts_S1x1_S_ q)
    (shapeCast S_ (cntArr m ρ c) shapeCasts_S1x1_S_ q + weps) = _
  rw [scalar_of_1x1, scalar_of_1x1]

end Cert.KernelIdeal.Blocks

end
-- ==== Proof.KernelValue.lean ====
/-
  The kernel's run with its result named: the loss summed block by block over the Gram-matrix distances.
-/
import proofs.«162565_j50190987821742_1_alg».proof.Proof.KernelRun
import proofs.«162565_j50190987821742_1_alg».proof.Proof.Precompute
import proofs.«162565_j50190987821742_1_alg».proof.Proof.TripletValue
import proofs.«162565_j50190987821742_1_alg».proof.Proof.TripletBody
import proofs.«162565_j50190987821742_1_alg».proof.Proof.Blocks

noncomputable section

namespace Cert.KernelIdeal.KernelValue

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-- The features and the labels as the program is launched with them, as functions of two coordinates. -/
abbrev X (c : Dev nD) : Fin 512 → Fin 512 → EReal :=
  fun i k => (m ((c.tc : Thread nD τ).loc main_arg0) : Vec Ideal S512x512 .f32) (ix2 i k)
abbrev Lb (c : Dev nD) : Fin 512 → Fin 24 → BitVec 32 :=
  fun i l => (m ((c.tc : Thread nD τ).loc main_arg1) : Vec Ideal S512x24 .i32) (ix2 i l)

/-- The two matrices the second kernel is entered with, at their literal type. -/
abbrev distArr (c : Dev nD) : Vec Ideal S512x512 .f32 := V1 m ρ c main_v0_0
abbrev simArr (c : Dev nD) : Vec Ideal S512x512 .f32 := V1 m ρ c main_v0_1

/-- The second kernel is entered with the first kernel's two values of the launch arguments. -/
theorem distArr_eq (c : Dev nD) : distArr m ρ c = k0_pay1 (F := Ideal) (m ((c.tc : Thread nD τ).loc main_arg0)) :=
  (W1_arr m ρ c 2).trans (Blocks.arr0_2 (V0 m ρ) c)
theorem simArr_eq (c : Dev nD) : simArr m ρ c = k0_pay2 (F := Ideal) (m ((c.tc : Thread nD τ).loc main_arg1)) :=
  (W1_arr m ρ c 3).trans (Blocks.arr0_3 (V0 m ρ) c)

/-- Entry (i, j) of the distance matrix and of the similarity matrix. -/
theorem distArr_apply (c : Dev nD) (i j : Fin 512) : distArr m ρ c (ix2 i j) = distOf (sqK (X m c) i j) := by
  rw [distArr_eq]; exact Precompute.pay1_apply _ i j
theorem simArr_apply (c : Dev nD) (i j : Fin 512) : simArr m ρ c (ix2 i j) = sim (Lb m c) i j := by
  rw [simArr_eq]; exact Precompute.pay2_apply _ i j

/-- A hinge of block `t` as the body reads it off its two blocks is the hinge of the whole matrices' row. -/
theorem tripB_eq (c : Dev nD) (t : Fin cfg1.N) (a : Fin 8) (j k : Fin 512) :
    TripletValue.tripB (iblk1 (V1 m ρ) c 0 t) (iblk1 (V1 m ρ) c 1 t) a j k
      = tripK (fun i j => distOf (sqK (X m c) i j)) (sim (Lb m c)) (row t.val a) j k := by
  unfold TripletValue.tripB tripK
  rw [Blocks.iblk1_0_apply (V1 m ρ) c t a j, Blocks.iblk1_0_apply (V1 m ρ) c t a k,
    Blocks.iblk1_1_apply (V1 m ρ) c t a j, Blocks.iblk1_1_apply (V1 m ρ) c t a k]
  show (simArr m ρ c (ix2 (row t.val a) j) * (w1 - simArr m ρ c (ix2 (row t.val a) k)))
      * max (distArr m ρ c (ix2 (row t.val a) j) - distArr m ρ c (ix2 (row t.val a) k)) w0 = _
  rw [distArr_apply, distArr_apply, simArr_apply, simArr_apply]

/-- Block `t`'s two numbers as the body computes them are the specification's. -/
theorem payS_eq (c : Dev nD) (t : ℕ) (ht : t < 64) (p : S1x1.Idx) :
    TripletBody.payS (V1 m ρ) c t p = blkS (fun i j => distOf (sqK (X m c) i j)) (sim (Lb m c)) t := by
  have h : t < cfg1.N := by rw [show cfg1.N = 64 from N_1]; exact ht
  unfold TripletBody.payS blkS
  rw [dif_pos h, TripletValue.pay8_apply]
  exact Finset.sum_congr rfl fun a _ => Finset.sum_congr rfl fun j _ => Finset.sum_congr rfl fun k _ =>
    tripB_eq m ρ c ⟨t, h⟩ a j k
theorem payC_eq (c : Dev nD) (t : ℕ) (ht : t < 64) :
    TripletBody.payC (V1 m ρ) c t = blkC (fun i j => distOf (sqK (X m c) i j)) (sim (Lb m c)) t := by
  have h : t < cfg1.N := by rw [show cfg1.N = 64 from N_1]; exact ht
  unfold TripletBody.payC blkC
  rw [dif_pos h, TripletValue.pay6_apply]
  exact Finset.sum_congr rfl fun a _ => Finset.sum_congr rfl fun j _ => Finset.sum_congr rfl fun k _ =>
    congrArg cnt (tripB_eq m ρ c ⟨t, h⟩ a j k)

/-- The two accumulators' arrays after the second kernel: zero plus the sixty-four blocks' numbers. -/
theorem sumArr_apply (c : Dev nD) (p : S1x1.Idx) :
    Blocks.sumArr m ρ c p = w0 + ∑ t ∈ Finset.range 64, blkS (fun i j => distOf (sqK (X m c) i j)) (sim (Lb m c)) t := by
  have e : Blocks.sumArr m ρ c = (outsAt1 (V1 m ρ) c 63 TripletBody.h63).1 :=
    (W2_arr m ρ c 2).trans (TripletBody.arr1_2 (V1 m ρ) c)
  rw [e, (TripletBody.outs_fold (V1 m ρ) c 63 TripletBody.h63 p).1]
  exact congrArg (w0 + ·) (Finset.sum_congr rfl fun t ht => payS_eq m ρ c t (Finset.mem_range.mp ht) p)
theorem cntArr_apply (c : Dev nD) (p : S1x1.Idx) :
    Blocks.cntArr m ρ c p = w0 + ∑ t ∈ Finset.range 64, blkC (fun i j => distOf (sqK (X m c) i j)) (sim (Lb m c)) t := by
  have e : Blocks.cntArr m ρ c = (outsAt1 (V1 m ρ) c 63 TripletBody.h63).2 :=
    (W2_arr m ρ c 3).trans (TripletBody.arr1_3 (V1 m ρ) c)
  rw [e, (TripletBody.outs_fold (V1 m ρ) c 63 TripletBody.h63 p).2]
  exact congrArg (w0 + ·) (Finset.sum_congr rfl fun t ht => payC_eq m ρ c t (Finset.mem_range.mp ht))

/-- The result buffer at the last boundary is `kernelRes` of the arguments. -/
theorem W3_v5 (c : Dev nD) :
    (W3 m ρ c (Proc.devRef .tc main_v5) : Vec Ideal S_ .f32)
      = fun _ => kernelRes (fun i k => (m ((c.tc : Thread nD τ).loc main_arg0) : Vec Ideal S512x512 .f32) (ix2 i k))
          (fun i l => (m ((c.tc : Thread nD τ).loc main_arg1) : Vec Ideal S512x24 .i32) (ix2 i l)) := by
  funext q
  show Blocks.resArr m ρ c q = kernelRes (X m c) (Lb m c)
  rw [Blocks.tail_apply, sumArr_apply, cntArr_apply]
  rfl

/-- The kernel's run: it ends with the result at `kernelRes` of the arguments, the arguments unchanged. -/
theorem run : θ_run defs (onTc (τ := τ) (main (F := Ideal))) ⟨m, fun _ => 0, ρ⟩ (fun r => ∀ c : Dev nD,
      r.2.mem ((c.tc : Thread nD τ).loc main_v5)
        = (fun _ => kernelRes (fun i k => (m ((c.tc : Thread nD τ).loc main_arg0) : Vec Ideal S512x512 .f32) (ix2 i k))
            (fun i l => (m ((c.tc : Thread nD τ).loc main_arg1) : Vec Ideal S512x24 .i32) (ix2 i l)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W3_v5 m ρ c), (h c).2⟩) (run_v5 m ρ)

end Cert.KernelIdeal.KernelValue

end
-- ==== Proof.LibSumIdx3.lean ====
/-
  A sum over the indices of a rank-3 shape is the iterated sum over its three coordinates.
-/
import Idealize.ShloMosaic.Lib.ValueIdx

noncomputable section

namespace Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 shape, as three nested sums over its coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx

end
-- ==== Proof.RefValue.lean ====
/-
  The reference's result as one function of its two arguments, read off its run one operation at a time:
  the loss summed over all triplets at once over the squared-difference distances.
-/
import proofs.«162565_j50190987821742_1_alg».proof.Proof.RefRead
import proofs.«162565_j50190987821742_1_alg».proof.Proof.Spec
import proofs.«162565_j50190987821742_1_alg».proof.Proof.LibSumIdx3
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.ReadP Cert.Spec

/-! ## The distances -/

/-- The first operand of the difference at `(i, j, k)` is the feature `(i, k)`. -/
theorem idx_feat_i (i j k : Fin 512) : idx_main_v0 (idx_main_v2 (idx_main_v6 (ix2 i j) k)) = ix2 i k :=
  funext fun a => Fin.ext (by match a with | ⟨0, _⟩ => rfl | ⟨1, _⟩ => rfl)

/-- The second operand of the difference at `(i, j, k)` is the feature `(j, k)`. -/
theorem idx_feat_j (i j k : Fin 512) : idx_main_v1 (idx_main_v3 (idx_main_v6 (ix2 i j) k)) = ix2 j k :=
  funext fun a => Fin.ext (by match a with | ⟨0, _⟩ => rfl | ⟨1, _⟩ => rfl)

/-- The clipped squared distance of rows `i` and `j` is the clipped sum of squared differences. -/
theorem sq_at (x0 : (⟨S512x512, .f32⟩ : BufTy).Contents (Elt Ideal)) (i j : Fin 512) :
    val_main_v7 (F := Ideal) x0 (ix2 i j) = sqR (fun a b => x0 (ix2 a b)) i j := by
  rw [val_main_v7_apply, val_main_call0_v1_apply, val_main_call0_v0_apply, val_main_cst_0_apply, val_main_v6_apply,
    val_main_cst_apply]
  simp only [val_main_v5_apply, val_main_v4_apply, val_main_v2_apply, val_main_v3_apply, val_main_v0_apply,
    val_main_v1_apply, idx_feat_i, idx_feat_j, Ideal.maximumf_def, Ideal.mulf_def, Ideal.subf_def, Ideal.ofBits_def]
  rfl

/-- The distance of rows `i` and `j` is `distOf` of their clipped squared distance. -/
theorem dist_at (x0 : (⟨S512x512, .f32⟩ : BufTy).Contents (Elt Ideal)) (i j : Fin 512) :
    val_main_v17 (F := Ideal) x0 (ix2 i j) = distOf (sqR (fun a b => x0 (ix2 a b)) i j) := by
  rw [val_main_v17_apply, val_main_v14_apply, val_main_v16_apply, val_main_v13_apply, val_main_v12_apply,
    val_main_v15_apply, val_main_cst_3_apply, val_main_v10_apply, val_main_v9_apply, val_main_v11_apply,
    val_main_cst_2_apply, val_main_v8_apply, val_main_cst_1_apply, sq_at]
  generalize sqR (fun a b => x0 (ix2 a b)) i j = q
  rfl

/-! ## The label similarity -/

/-- The left factor of the label product at `(i, j)`, `l` is the label `(i, l)`. -/
theorem idx_lab_i (i j : Fin 512) (l : Fin 24) : lidx_main_v20 (ix2 i j) l = ix2 i l :=
  funext fun a => Fin.ext (by match a with | ⟨0, _⟩ => rfl | ⟨1, _⟩ => rfl)

/-- The right factor of the label product at `(i, j)`, `l` is the label `(j, l)`. -/
theorem idx_lab_j (i j : Fin 512) (l : Fin 24) : idx_main_v19 (ridx_main_v20 (ix2 i j) l) = ix2 j l :=
  funext fun a => Fin.ext (by match a with | ⟨0, _⟩ => rfl | ⟨1, _⟩ => rfl)

/-- The similarity of rows `i` and `j`: their label rows' inner product is positive. -/
theorem sim_at (x1 : (⟨S512x24, .i32⟩ : BufTy).Contents (Elt Ideal)) (i j : Fin 512) :
    val_main_v23 (F := Ideal) x1 (ix2 i j) = sim (fun a l => x1 (ix2 a l)) i j := by
  rw [val_main_v23_apply, val_main_v22_apply, val_main_v20_apply, val_main_v21_apply, val_main_cst_4_apply]
  simp only [val_main_v19_apply, val_main_v18_apply, idx_lab_i, idx_lab_j]
  rfl

/-! ## The hinges -/

/-- The positive's entry of a two-index array at the triplet `(i, j, k)` is its entry `(i, j)`. -/
theorem idx_pos_s (i j k : Fin 512) : idx_main_v24 (idx_main_v28 (ix3 i j k)) = ix2 i j :=
  funext fun a => Fin.ext (by match a with | ⟨0, _⟩ => rfl | ⟨1, _⟩ => rfl)
/-- The negative's entry of a two-index array at the triplet `(i, j, k)` is its entry `(i, k)`. -/
theorem idx_neg_s (i j k : Fin 512) : idx_main_v25 (idx_main_v29 (ix3 i j k)) = ix2 i k :=
  funext fun a => Fin.ext (by match a with | ⟨0, _⟩ => rfl | ⟨1, _⟩ => rfl)
/-- The same for the distances: the positive's entry is `(i, j)` … -/
theorem idx_pos_d (i j k : Fin 512) : idx_main_v31 (idx_main_v35 (ix3 i j k)) = ix2 i j :=
  funext fun a => Fin.ext (by match a with | ⟨0, _⟩ => rfl | ⟨1, _⟩ => rfl)
/-- … and the negative's entry is `(i, k)`. -/
theorem idx_neg_d (i j k : Fin 512) : idx_main_v32 (idx_main_v36 (ix3 i j k)) = ix2 i k :=
  funext fun a => Fin.ext (by match a with | ⟨0, _⟩ => rfl | ⟨1, _⟩ => rfl)

/-- The hinge of the triplet `(i, j, k)` over the reference's own distances and similarities. -/
theorem trip_at' (x0 : (⟨S512x512, .f32⟩ : BufTy).Contents (Elt Ideal)) (x1 : (⟨S512x24, .i32⟩ : BufTy).Contents (Elt Ideal))
    (i j k : Fin 512) :
    val_main_v39 (F := Ideal) x0 x1 (ix3 i j k)
      = tripR (fun a b => val_main_v17 (F := Ideal) x0 (ix2 a b)) (fun a b => val_main_v23 (F := Ideal) x1 (ix2 a b)) i j k := by
  rw [val_main_v39_apply, val_main_call1_v1_apply, val_main_call1_v0_apply, val_main_cst_7_apply, val_main_v38_apply,
    val_main_v30_apply, val_main_v37_apply, val_main_v28_apply, val_main_v29_apply, val_main_v35_apply, val_main_v36_apply,
    val_main_v24_apply, val_main_v27_apply, val_main_v31_apply, val_main_v34_apply, val_main_v26_apply, val_main_v25_apply,
    val_main_v33_apply, val_main_v32_apply, val_main_cst_5_apply, val_main_cst_6_apply,
    idx_pos_s, idx_neg_s, idx_pos_d, idx_neg_d]
  rfl

/-- The hinge of the triplet `(i, j, k)` is `tripR` over the squared-difference distances and the label similarity. -/
theorem trip_at (x0 : (⟨S512x512, .f32⟩ : BufTy).Contents (Elt Ideal)) (x1 : (⟨S512x24, .i32⟩ : BufTy).Contents (Elt Ideal))
    (i j k : Fin 512) :
    val_main_v39 (F := Ideal) x0 x1 (ix3 i j k)
      = tripR (fun a b => distOf (sqR (fun a b => x0 (ix2 a b)) a b)) (sim (fun a l => x1 (ix2 a l))) i j k := by
  rw [trip_at']
  exact congrArg₂ (fun d s => tripR d s i j k) (funext fun a => funext fun b => dist_at x0 a b)
    (funext fun a => funext fun b => sim_at x1 a b)

/-- Whether the hinge of the triplet `(i, j, k)` counts. -/
theorem cnt_at (x0 : (⟨S512x512, .f32⟩ : BufTy).Contents (Elt Ideal)) (x1 : (⟨S512x24, .i32⟩ : BufTy).Contents (Elt Ideal))
    (i j k : Fin 512) :
    val_main_v42 (F := Ideal) x0 x1 (ix3 i j k)
      = cnt (tripR (fun a b => distOf (sqR (fun a b => x0 (ix2 a b)) a b)) (sim (fun a l => x1 (ix2 a l))) i j k) := by
  rw [val_main_v42_apply, val_main_v41_apply, val_main_v40_apply, val_main_cst_8_apply, trip_at]
  generalize tripR _ _ i j k = z
  rfl

/-! ## The loss -/

/-- The reference's result is `refRes` of its arguments. -/
theorem ref_value (x0 : (⟨S512x512, .f32⟩ : BufTy).Contents (Elt Ideal)) (x1 : (⟨S512x24, .i32⟩ : BufTy).Contents (Elt Ideal)) :
    val_main_v46 (F := Ideal) x0 x1 = fun _ => refRes (fun i k => x0 (ix2 i k)) (fun i l => x1 (ix2 i l)) := by
  funext u
  rw [val_main_v46_apply, val_main_v45_apply, val_main_v44_apply, val_main_v43_apply, val_main_cst_10_apply,
    val_main_cst_9_apply, val_main_cst_11_apply, sum_idx3, sum_idx3]
  simp only [trip_at, cnt_at]
  rfl

end Cert.ReferenceIdeal.RefValue

end
-- ==== Proof.SumBlocks.lean ====
/-
  A sum over the 512 anchor rows is the sum over the 64 blocks of eight rows, block by block.
-/
import proofs.«162565_j50190987821742_1_alg».proof.Proof.Spec

noncomputable section

namespace Cert.Spec

/-- The 512 rows as 64 blocks of 8: the pair (block, offset) is the row `8 * block + offset`. -/
def rowEquiv : Fin 64 × Fin 8 ≃ Fin 512 :=
  finProdFinEquiv.trans (finCongr (by norm_num))

/-- The row of a pair (block, offset) is that offset's row of that block. -/
theorem rowEquiv_apply (t : Fin 64) (a : Fin 8) : rowEquiv (t, a) = row t.val a := by
  apply Fin.ext
  have ht := t.isLt
  have ha := a.isLt
  simp only [rowEquiv, row, Equiv.trans_apply, finProdFinEquiv_apply_val, finCongr_apply, Fin.coe_cast]
  omega

/-- A sum over the 512 rows, regrouped into 64 blocks of 8 consecutive rows. -/
theorem sum_rows {M : Type*} [AddCommMonoid M] (f : Fin 512 → M) :
    ∑ i : Fin 512, f i = ∑ t ∈ Finset.range 64, ∑ a : Fin 8, f (row t a) := by
  rw [← Fin.sum_univ_eq_sum_range (fun t => ∑ a : Fin 8, f (row t a)) 64]
  rw [← Equiv.sum_comp rowEquiv f, Fintype.sum_prod_type]
  refine Finset.sum_congr rfl fun t _ => Finset.sum_congr rfl fun a _ => ?_
  rw [rowEquiv_apply]

end Cert.Spec

end
-- ==== Proof.SpecEq.lean ====
/-
  On finite features the two forms of the triplet loss are one number.
-/
import proofs.«162565_j50190987821742_1_alg».proof.Proof.Spec
import proofs.«162565_j50190987821742_1_alg».proof.Proof.SumBlocks
import Mathlib.Algebra.BigOperators.Ring.Finset
import Mathlib.Tactic.Ring
import Mathlib.Tactic.NormNum

noncomputable section

namespace Cert.Spec

open Idealize.ShloMosaic

/-! ### The three words that are evaluated -/

private theorem w0_eq : w0 = 0 := Ideal.ofBits_zero_f32

private theorem w1_eq : w1 = 1 := by
  simp [Ideal.ofBits, Ideal.ieee, -EReal.coe_mul]; norm_num

private theorem w2_eq : w2 = 2 := by
  simp [Ideal.ofBits, Ideal.ieee, -EReal.coe_mul]; norm_num; norm_cast

/-! ### The two forms of the squared distance -/

/-- The coercion of the reals into the extended reals carries finite sums to finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: `sum (a - b)^2 = sum a^2 + sum b^2 - 2 sum a b`. -/
private theorem real_sq_expand {ι : Type} (s : Finset ι) (a b : ι → ℝ) :
    ∑ k ∈ s, (a k - b k) * (a k - b k)
      = ((∑ k ∈ s, a k * a k) + (∑ k ∈ s, b k * b k)) - 2 * (∑ k ∈ s, a k * b k) := by
  rw [Finset.mul_sum, ← Finset.sum_add_distrib, ← Finset.sum_sub_distrib]
  refine Finset.sum_congr rfl fun k _ => ?_
  ring

/-- On finite features the Gram-matrix form and the squared-difference form of the clipped squared distance agree. -/
private theorem sq_eq (X : Fin 512 → Fin 512 → EReal) (hX : ∀ i k, ∃ r : ℝ, X i k = (r : EReal)) (i j : Fin 512) :
    sqK X i j = sqR X i j := by
  choose x hx using hX
  have hXx : X = fun i k => (x i k : EReal) := by funext i k; exact hx i k
  subst hXx
  unfold sqK sqR
  rw [w0_eq, w2_eq, zero_add, max_comm]
  congr 1
  have h2 : (2 : EReal) = ((2 : ℝ) : EReal) := by norm_cast
  simp only [h2, ← EReal.coe_mul, ← EReal.coe_sub, ← coe_sum, ← EReal.coe_add]
  rw [real_sq_expand]

/-! ### One-bit words -/

private theorem bit_cases (b : BitVec 1) : bit b = 0 ∨ bit b = 1 := by
  have h : b.toNat < 2 := b.isLt
  unfold bit
  obtain h0 | h1 : b.toNat = 0 ∨ b.toNat = 1 := by omega
  · left; rw [h0, Nat.cast_zero, EReal.coe_zero]
  · right; rw [h1, Nat.cast_one, EReal.coe_one]

/-! ### The two forms of the hinge -/

private theorem one_sub_one : (1 : EReal) - 1 = 0 := by
  rw [← EReal.coe_one, ← EReal.coe_sub, sub_self, EReal.coe_zero]

/-- With a similarity valued in `{0, 1}` the mask is `0` or `1`, and either way the two forms of the hinge agree. -/
private theorem trip_eq (d s : Fin 512 → Fin 512 → EReal) (hs : ∀ i j, s i j = 0 ∨ s i j = 1) (i j k : Fin 512) :
    tripK d s i j k = tripR d s i j k := by
  unfold tripK tripR
  rw [w0_eq, w1_eq]
  rcases hs i j with h1 | h1 <;> rcases hs i k with h2 | h2 <;> rw [h1, h2]
  · rw [zero_mul, zero_mul, zero_mul, max_self]
  · rw [zero_mul, zero_mul, zero_mul, max_self]
  · rw [sub_zero, mul_one, one_mul, one_mul, one_mul, max_comm]
  · rw [one_sub_one, mul_zero, zero_mul, zero_mul, max_self]

/-! ### The loss -/

/-- On finite features the two forms of the loss are one number. -/
theorem res_eq (X : Fin 512 → Fin 512 → EReal) (Lb : Fin 512 → Fin 24 → BitVec 32)
    (hX : ∀ i k, ∃ r : ℝ, X i k = (r : EReal)) : kernelRes X Lb = refRes X Lb := by
  have hd : (fun i j => distOf (sqK X i j)) = (fun i j => distOf (sqR X i j)) := by
    funext i j; rw [sq_eq X hX i j]
  have hs : ∀ i j, sim Lb i j = 0 ∨ sim Lb i j = 1 := fun i j => bit_cases _
  unfold kernelRes refRes blkS blkC
  rw [hd, ← sum_rows (fun i => ∑ j : Fin 512, ∑ k : Fin 512, tripK _ (sim Lb) i j k),
    ← sum_rows (fun i => ∑ j : Fin 512, ∑ k : Fin 512, cnt (tripK _ (sim Lb) i j k))]
  simp only [trip_eq _ _ hs]

end Cert.Spec

end
-- ==== Proof.Finite.lean ====
/-
  The precondition read: every entry of the float argument is a real number.
-/
import proofs.«162565_j50190987821742_1_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Finite

open Idealize.ShloMosaic Idealize.ShloMosaic.ValueIdx Cert.Pre_finite_inputs

/-- The rank-0 shape has one index. -/
instance : Subsingleton S_.Idx := ⟨fun a b => funext fun d => d.elim0⟩

/-- The word `0x7F800000` denotes the top of the extended reals. -/
theorem inf_word : Ideal.ofBits .f32 0x7F800000#32 = (⊤ : EReal) := by
  simp [Ideal.ofBits, Ideal.ieee]

/-- An extended real whose absolute value `max x (-x)` is strictly below the top is a real number. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- Where the precondition's predicate is all ones, every entry of the first argument is real. -/
theorem real_of_pre [Cert.Pre_finite_inputs.Facts] (x0 : FVec Ideal S512x512 .f32) (x1 : IVec S512x24 32)
    (h : Cert.Pre_finite_inputs.fn (F := Ideal) x0 x1 = fun _ => 1#1) (i k : Fin 512) :
    ∃ r : ℝ, x0 (ix2 i k) = (r : EReal) := by
  have h0 := congrFun h ValueIdx.ix0
  dsimp only [Cert.Pre_finite_inputs.fn] at h0
  have he := Host.reduce_andi_all _ _ _ _ _ h0 (ix2 i k)
  -- the element compared: the absolute value of the entry against the denotation of the infinity word
  have hc : Ideal.cmp .olt (max (x0 (ix2 i k)) (-(x0 (ix2 i k)))) (Ideal.ofBits .f32 0x7F800000#32) = 1#1 := he
  rw [inf_word] at hc
  refine real_of_abs_lt_top _ ?_
  by_contra hn
  simp [Ideal.cmp, hn] at hc

end Cert.Pre_finite_inputs.Finite

end
-- ==== Proof.lean ====
/-
  The certificate of the triplet loss kernel against its reference, over the extended reals.

  The kernel computes the pairwise distances through the Gram matrix, `|x_i|^2 + |x_j|^2 - 2 <x_i, x_j>`, and the
  label similarity `[<lb_i, lb_j> > 0]` in one launch, and in a second launch, block of eight anchor rows by block,
  accumulates the hinges `mask * max (d_ij - d_ik) 0` and the count of those above the threshold; the host divides.
  The reference forms `sum_k (x_ik - x_jk)^2`, the same similarity, and sums `max 0 (mask * (d_ij - 1 * d_ik))` and
  its count over all triplets at once. On finite features the two squared distances are one real number
  (the expansion of a square, which needs finiteness), so the distances are real; the mask is 0 or 1, so the two hinge
  forms agree; and a sum over all anchors is the sum over the blocks in order. The three frames are the generated
  ones (the reference's its run with the result dropped); the idealization rewrote nothing.
-/
import proofs.«162565_j50190987821742_1_alg».proof.Defs
import proofs.«162565_j50190987821742_1_alg».proof.Proof.Gen.Kernel
import proofs.«162565_j50190987821742_1_alg».proof.Proof.Gen.Kernel.Skeleton
import proofs.«162565_j50190987821742_1_alg».proof.Proof.Gen.Kernel.Launch
import proofs.«162565_j50190987821742_1_alg».proof.Proof.Gen.Kernel.Points
import proofs.«162565_j50190987821742_1_alg».proof.Proof.Gen.Kernel.Frame
import proofs.«162565_j50190987821742_1_alg».proof.Proof.Gen.KernelIdeal
import proofs.«162565_j50190987821742_1_alg».proof.Proof.Gen.KernelIdeal.Skeleton
import proofs.«162565_j50190987821742_1_alg».proof.Proof.Gen.KernelIdeal.Launch
import proofs.«162565_j50190987821742_1_alg».proof.Proof.Gen.KernelIdeal.Points
import proofs.«162565_j50190987821742_1_alg».proof.Proof.Gen.KernelIdeal.Frame
import proofs.«162565_j50190987821742_1_alg».proof.Proof.Gen.ReferenceIdeal
import proofs.«162565_j50190987821742_1_alg».proof.Proof.Gen.Pre_finite_inputs
import proofs.«162565_j50190987821742_1_alg».proof.Proof.KernelValue
import proofs.«162565_j50190987821742_1_alg».proof.Proof.RefValue
import proofs.«162565_j50190987821742_1_alg».proof.Proof.SpecEq
import proofs.«162565_j50190987821742_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end at the loss of the launch arguments, in its two forms, which agree on finite features. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v46_eq, Cert.ReferenceIdeal.RefValue.ref_value, (hagree c).1, (hagree c).2]
  funext q
  exact (Cert.Spec.res_eq _ _ fun i k => Cert.Pre_finite_inputs.Finite.real_of_pre _ _ (hpre c) i k).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
